-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256 : Shape := ⟨1, ![256]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S64x256x56x56 .f32) (main_arg1 : FVec F S256 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S64x256x56x56 : Shape := ⟨4, ![64, 256, 56, 56]⟩
abbrev S256 : Shape := ⟨1, ![256]⟩
abbrev S1x256x1x1 : Shape := ⟨4, ![1, 256, 1, 1]⟩
abbrev S2x256x56x56 : Shape := ⟨4, ![2, 256, 56, 56]⟩

abbrev nBuf : Space → Nat
  | .hbm => 4
  | .vmem => 5
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S1x256x1x1, .f32⟩
  | .hbm, ⟨3, _⟩ => ⟨S64x256x56x56, .f32⟩
  | .local _ .vmem, ⟨0, _⟩ => ⟨S2x256x56x56, .f32⟩
  | .local _ .vmem, ⟨1, _⟩ => ⟨S2x256x56x56, .f32⟩
  | .local _ .vmem, ⟨2, _⟩ => ⟨S1x256x1x1, .f32⟩
  | .local _ .vmem, ⟨3, _⟩ => ⟨S2x256x56x56, .f32⟩
  | .local _ .vmem, ⟨4, _⟩ => ⟨S2x256x56x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S256_S1x256x1x1 : S256.ShapeCasts S1x256x1x1
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  inb_S2x256x56x56_S2x256x56x56_0_0_0_0 : ∀ a, (![0, 0, 0, 0] : Fin 4 → Nat) a + S2x256x56x56.size a ≤ S2x256x56x56.size a
  h_S2x256x56x56 : 0 < S2x256x56x56.numel
  broadcasts_S1x256x1x1_S2x256x56x56 : S1x256x1x1.Broadcasts S2x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x56x56.size a ≤ S64x256x56x56.size a
  hwx0_0 : ∀ i : grid0.Coords, EltTy.bits .f32 = 32 ∨ (Rect.block (s := S64x256x56x56) S2x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S1x256x1x1.size a
  hwx0_1 : ∀ i : grid0.Coords, EltTy.bits .f32 = 32 ∨ (Rect.block (s := S1x256x1x1) S1x256x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x56x56.size a ≤ S64x256x56x56.size a
  hwx0_2 : ∀ i : grid0.Coords, EltTy.bits .f32 = 32 ∨ (Rect.block (s := S64x256x56x56) S2x256x56x56.size (cc0_transform_2 i) (hinb0_2 i)).WholeWords (EltTy.packing .f32)

variable [Facts₀]

abbrev win0_0 : Pipeline.Window sig grid0 :=
  Pipeline.Window.ofSpec (Memref.whole main_arg0) S2x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x256x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256 : Shape := ⟨1, ![256]⟩
abbrev S1x256x1x1 : Shape := ⟨4, ![1, 256, 1, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256, .f32⟩
  | .hbm, ⟨2, _⟩ => ⟨S1x256x1x1, .f32⟩
  | .hbm, ⟨3, _⟩ => ⟨S64x256x56x56, .f32⟩
  | .hbm, ⟨4, _⟩ => ⟨S64x256x56x56, .f32⟩
  | .hbm, ⟨5, _⟩ => ⟨S64x256x56x56, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S64x256x56x56, .f32⟩
  | .hbm, ⟨10, _⟩ => ⟨S64x256x56x56, .f32⟩
  | .hbm, ⟨11, _⟩ => ⟨S_, .f32⟩
  | .hbm, ⟨12, _⟩ => ⟨S64x256x56x56, .f32⟩
  | .hbm, ⟨13, _⟩ => ⟨S64x256x56x56, .f32⟩
  | .hbm, ⟨14, _⟩ => ⟨S64x256x56x56, .f32⟩
  | .hbm, ⟨15, _⟩ => ⟨S64x256x56x56, .f32⟩
  | .hbm, ⟨16, _⟩ => ⟨S64x256x56x56, .f32⟩
  | .hbm, ⟨17, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  shapeCasts_S256_S1x256x1x1 : S256.ShapeCasts S1x256x1x1
  bcast_S1x256x1x1_S64x256x56x56_0_1_2_3 : S1x256x1x1.BroadcastsInDim S64x256x56x56 (![0, 1, 2, 3] : Fin 4 → Fin S64x256x56x56.rank)
  bcast_S_S64x256x56x56 : S_.BroadcastsInDim S64x256x56x56 (![] : Fin 0 → Fin S64x256x56x56.rank)

variable [Facts₀]

class Facts : Prop extends Facts₀ where

variable [Facts]
-- ==== Proof.FiniteInputs.lean ====
/-
  What the precondition says of the two argument arrays: every entry is a real number.

  The printed predicate is the conjunction of two tests, one per array: the array's absolute values are all below
  `+inf`. On the extended reals `|x| < +inf` excludes both infinities, which leaves the reals.
-/
import proofs.«158682_j52664888984101_1_alg».proof.Pre_finite_inputs
import Idealize.ShloMosaic.PureOps.Ideal
import Idealize.ShloMosaic.Lib.ReduceAll
import Idealize.ShloMosaic.Lib.ValueIdx

noncomputable section

namespace Cert.Quant

open Idealize.ShloMosaic

/-- An extended real whose absolute value is below `⊤` is a real. -/
theorem real_of_abs_lt_top (x : EReal) (h : max x (-x) < ⊤) : ∃ y : ℝ, x = (y : EReal) := by
  have h1 : x ≠ ⊤ := fun e => by rw [e] at h; simp at h
  have h2 : x ≠ ⊥ := fun e => by rw [e] at h; simp at h
  exact ⟨x.toReal, (EReal.coe_toReal h1 h2).symm⟩

/-- The word `0x7F800000` is `+inf`. -/
theorem inf_word : Ideal.ofBits .f32 0x7F800000#32 = ⊤ := by simp [Ideal.ofBits, Ideal.ieee]

/-- One element of the test: the comparison `|x| < +inf` came out true, so `x` is a real. -/
theorem real_of_test (x : EReal)
    (h : FloatOps.cmpf (F := Ideal) (φ := .f32) .olt (FloatOps.hostAbsf x) (FloatOps.ofBits .f32 0x7F800000#32) = 1#1) :
    ∃ y : ℝ, x = (y : EReal) := by
  apply real_of_abs_lt_top
  change BitVec.ofBool (decide (max x (-x) < Ideal.ofBits .f32 0x7F800000#32)) = 1#1 at h
  rw [inf_word] at h
  by_contra hn
  simp [hn] at h

instance : Subsingleton Cert.Pre_finite_inputs.S_.Idx := ⟨fun a b => funext fun d => d.elim0⟩

variable [Cert.Pre_finite_inputs.Facts]

/-- Under the precondition both arrays hold reals only. -/
theorem reals_of_pre (x : FVec Ideal Cert.Pre_finite_inputs.S64x256x56x56 .f32) (s : FVec Ideal Cert.Pre_finite_inputs.S256 .f32)
    (h : Cert.Pre_finite_inputs.fn (F := Ideal) x s = fun _ => 1#1) :
    (∀ i, ∃ y : ℝ, x i = (y : EReal)) ∧ (∀ k, ∃ y : ℝ, s k = (y : EReal)) := by
  have h0 := congrFun h ValueIdx.ix0
  dsimp only [Cert.Pre_finite_inputs.fn] at h0
  obtain ⟨hx, hs⟩ := IntOp.andi_eq_one.1 h0
  exact ⟨fun i => real_of_test (x i) (Host.reduce_andi_all _ _ _ _ _ hx i),
         fun k => real_of_test (s k) (Host.reduce_andi_all _ _ _ _ _ hs k)⟩

end Cert.Quant

end
-- ==== Proof.QuantLaw.lean ====
/-
  Per-channel fake quantization of one entry, on the extended reals: divide by the channel's step, round to the
  nearest integer (ties to even), clip to the signed 8-bit range, multiply by the step again.

  The clipped value lies between two real numbers, so it is a real number whatever the quotient was (a quotient
  by a zero step, an infinite quotient). Its product with a real step is then real, and for a real entry
  `x` the straight-through form `x + (q - x)` is `q`: real numbers cancel, where an infinity would not.
-/
import Idealize.ShloMosaic.PureOps.Ideal
import Idealize.ShloMosaic.Lib.ValueIdx

noncomputable section

namespace Cert.Quant

open Idealize.ShloMosaic

/-- One entry `x` quantized with step `s`: `clip(roundeven(x / s), -128, 127) * s`, the two bounds the signed
    readings of the 32-bit words the programs convert. -/
def q (x s : Ideal .f32) : Ideal .f32 :=
  FloatOps.mulf
    (FloatOps.minimumf (Scalar.sitofp (F := Ideal) .f32 (127#32 : BitVec 32))
      (FloatOps.maximumf (Scalar.sitofp (F := Ideal) .f32 (4294967168#32 : BitVec 32))
        (FloatOps.roundeven (FloatOps.divf x s))))
    s

/-- Clipping between two reals lands on a real: the result is at most the upper bound and at least the smaller
    of the two bounds. -/
theorem clip_real (a b : ℝ) (r : EReal) : ∃ y : ℝ, min (a : EReal) (max (b : EReal) r) = (y : EReal) := by
  have h2 : ⊥ < min (a : EReal) (max (b : EReal) r) :=
    lt_min (EReal.bot_lt_coe a) ((EReal.bot_lt_coe b).trans_le (le_max_left _ _))
  have h1 : min (a : EReal) (max (b : EReal) r) < ⊤ := (min_le_left _ _).trans_lt (EReal.coe_lt_top a)
  exact ⟨_, (EReal.coe_toReal h1.ne h2.ne').symm⟩

/-- The quantized value of any entry with a real step is real. -/
theorem q_real (x : EReal) (s : ℝ) : ∃ y : ℝ, q x (s : EReal) = (y : EReal) := by
  obtain ⟨y, hy⟩ := clip_real (((127#32 : BitVec 32).toInt : ℝ)) (((4294967168#32 : BitVec 32).toInt : ℝ))
    (Ideal.liftRound Ideal.roundHalfEven (Ideal.div x (s : EReal)))
  refine ⟨y * s, ?_⟩
  have e : q x (s : EReal)
      = min ((((127#32 : BitVec 32).toInt : ℝ)) : EReal) (max ((((4294967168#32 : BitVec 32).toInt : ℝ)) : EReal)
          (Ideal.liftRound Ideal.roundHalfEven (Ideal.div x (s : EReal)))) * (s : EReal) := rfl
  rw [e, hy, EReal.coe_mul]

/-- Straight-through form: for a real entry and a real step, `x + (q - x) = q`. -/
theorem add_sub_q (x s : ℝ) : (x : EReal) + (q (x : EReal) (s : EReal) - (x : EReal)) = q (x : EReal) (s : EReal) := by
  obtain ⟨y, hy⟩ := q_real (x : EReal) s
  rw [hy, ← EReal.coe_sub, ← EReal.coe_add]
  congr 1
  ring

/-! ## The whole array -/

/-- The shape of the entries, `[batch, channel, row, column]`, and of the per-channel steps. -/
abbrev SX : Shape := ⟨4, ![64, 256, 56, 56]⟩
abbrev SC : Shape := ⟨1, ![256]⟩

/-- The channel an entry belongs to: its second coordinate. -/
def chan (i : SX.Idx) : SC.Idx := ValueIdx.ix1 (n := 256) ⟨(i 1).val, (i 1).isLt⟩

/-- Every entry quantized with its own channel's step. -/
def quantize (x : SX.Idx → Ideal .f32) (s : SC.Idx → Ideal .f32) : SX.Idx → Ideal .f32 :=
  fun i => q (x i) (s (chan i))

end Cert.Quant

end
-- ==== Proof.RefIsQuant.lean ====
/-
  The reference computes the quantized array.

  Read at an index `i`, its last stage is `x i + (q - x i)` with `q` the entry `x i` quantized by the step of
  `i`'s channel: the reshape to `[1, 256, 1, 1]` and the broadcast over batch, row and column read the step at the
  second coordinate of `i`. With real entries and real steps the sum is `q`.
-/
import proofs.«158682_j52664888984101_1_alg».proof.Proof.Gen.ReferenceIdeal.Read
import proofs.«158682_j52664888984101_1_alg».proof.Proof.QuantLaw

noncomputable section

namespace Cert.ReferenceIdeal.QuantValue

open Idealize.ShloMosaic Cert.ReferenceIdeal Cert.ReferenceIdeal.Read Cert.Quant

/-- The step either broadcast reads at `i` (the two read through the same index function) is the step of `i`'s
    channel. -/
theorem step_idx1 (i : S64x256x56x56.Idx) : idx_main_v0 (idx_main_v1 i) = chan i :=
  funext fun a => Fin.ext (by
    match a with
    | ⟨0, _⟩ => show ((0 * 256 + (i 1).val) * 1 + 0) * 1 + 0 = (i 1).val; omega)

/-- The reference's result is the quantized array, when entries and steps are real. -/
theorem ref_eq (x : FVec Ideal S64x256x56x56 .f32) (s : FVec Ideal S256 .f32)
    (hx : ∀ i, ∃ y : ℝ, x i = (y : EReal)) (hs : ∀ k, ∃ y : ℝ, s k = (y : EReal)) :
    val_main_v8 (F := Ideal) x s = quantize x s := by
  funext i
  rw [val_main_v8_apply, val_main_v7_apply, val_main_v6_apply, val_main_v4_apply, val_main_call1_v4_apply,
    val_main_call1_v3_apply, val_main_c_0_apply, val_main_call1_v2_apply, val_main_call1_v1_apply,
    val_main_call1_v0_apply, val_main_c_apply, val_main_v3_apply, val_main_v2_apply, val_main_v1_apply,
    val_main_v5_apply, val_main_v0_apply, step_idx1]
  obtain ⟨xr, hxr⟩ := hx i
  obtain ⟨sr, hsr⟩ := hs (chan i)
  show x i + (q (x i) (s (chan i)) - x i) = q (x i) (s (chan i))
  rw [hxr, hsr]
  exact add_sub_q xr sr

end Cert.ReferenceIdeal.QuantValue

end
-- ==== Proof.Payload.lean ====
/-
  The kernel body's arithmetic at one index of a block.

  The body loads the `[1, 256, 1, 1]` block of steps and the `[2, 256, 56, 56]` block of entries, broadcasts the
  steps over batch, row and column, and stores `clip(roundeven(x / s)) * s`. At the block index `j` the broadcast
  reads the step at `[0, j 1, 0, 0]`, so the stored value is the entry at `j` quantized by that step.
-/
import proofs.«158682_j52664888984101_1_alg».proof.Proof.Gen.KernelIdeal.Skeleton
import proofs.«158682_j52664888984101_1_alg».proof.Proof.QuantLaw
import Idealize.ShloMosaic.Lib.Pipeline.Value

noncomputable section

namespace Cert.KernelIdeal.QuantValue

open Idealize.ShloMosaic Cert.KernelIdeal Cert.KernelIdeal.Gen Cert.Quant

/-- The index of the step block that the broadcast reads for the block index `j`. -/
def stepAt (j : S2x256x56x56.Idx) : S1x256x1x1.Idx :=
  ValueIdx.ix4 (n0 := 1) (n1 := 256) (n2 := 1) (n3 := 1) ⟨0, Nat.one_pos⟩ ⟨(j 1).val, (j 1).isLt⟩ ⟨0, Nat.one_pos⟩ ⟨0, Nat.one_pos⟩

/-- The broadcast steps at `j`. -/
theorem steps_apply {α : Type} (v0 : S1x256x1x1.Idx → α) (j : S2x256x56x56.Idx) :
    broadcastTo S2x256x56x56 (shapeCast S1x256x1x1 v0 shapeCasts_S1x256x1x1_S1x256x1x1) broadcasts_S1x256x1x1_S2x256x56x56 j
      = v0 (stepAt j) := by
  rw [shapeCast_self]
  refine broadcastTo_apply v0 _ j (stepAt j) (fun a => ?_)
  match a with
  | ⟨0, _⟩ => rfl
  | ⟨1, _⟩ => rfl
  | ⟨2, _⟩ => rfl
  | ⟨3, _⟩ => rfl

/-- The stored value at `j`: the loaded entry at `j` quantized by the loaded step of `j`'s channel. -/
theorem pay_apply (v0 : Vec Ideal S1x256x1x1 .f32) (v2 : Vec Ideal S2x256x56x56 .f32) (j : S2x256x56x56.Idx) :
    k0_pay1 (F := Ideal) v0 v2 j = q (v2 j) (v0 (stepAt j)) := by
  unfold k0_pay1
  dsimp only [mulf, minimumf, maximumf, roundeven, divf, broadcast]
  rw [steps_apply]
  rfl

/-- The step block is the reshape of the step array: its entry at `[0, j 1, 0, 0]` is the step of the channel `j 1`,
    which is the channel of any array index `i` with the same second coordinate. -/
theorem steps_read {α : Type} (s : S256.Idx → α) (j : S2x256x56x56.Idx) (i : S64x256x56x56.Idx) (h : (i 1).val = (j 1).val) :
    shapeCast S1x256x1x1 s shapeCasts_S256_S1x256x1x1 (stepAt j) = s (chan i) := by
  refine shapeCast_apply s _ (stepAt j) (chan i) ?_
  rw [Shape.rowMajor_val_one, Shape.rowMajor_val_four]
  show (i 1).val = ((0 * 256 + (j 1).val) * 1 + 0) * 1 + 0
  omega

end Cert.KernelIdeal.QuantValue

end
-- ==== Proof.KernelIsQuant.lean ====
/-
  The kernel's output array is the quantized array.

  The grid has 32 points; point `t` works on the two batches `2t` and `2t + 1`: it stages that `[2, 256, 56, 56]`
  block of the entries and the whole `[1, 256, 1, 1]` block of steps (the host reshape of the step array), and
  writes back the same block of the output. What it writes at the block index `j` is the entry at array index
  `[2t + j 0, j 1, j 2, j 3]` quantized by the step of channel `j 1`: block `t` of `quantize`. The 32 blocks cover
  the array (batch `b` lies in block `b / 2`), so the array ends holding `quantize` of the two arguments.
-/
import proofs.«158682_j52664888984101_1_alg».proof.Proof.Gen.KernelIdeal.Value
import proofs.«158682_j52664888984101_1_alg».proof.Proof.Payload

noncomputable section

namespace Cert.KernelIdeal.QuantValue

open Cert.KernelIdeal Cert.KernelIdeal.Gen Cert.KernelIdeal.Value Idealize.ShloMosaic Idealize.ShloMosaic.TcCoe Idealize.SL.Sem
open Idealize.ShloMosaic.Pipeline (Dat)
open Cert.Quant

variable (m : (ℓ : Loc nD τ sig) → Buf (Elt Ideal) ℓ) (ρ : Dev nD → PrngReg)

theorem zero_off : (![0, 0, 0, 0] : Fin 4 → Nat) = fun _ => 0 := funext fun a => by fin_cases a <;> rfl

/-- The step block's array, as the region finds it, is the host reshape of the step argument. -/
theorem V_steps (c : Dev nD) :
    (V m c main_v0 : S1x256x1x1.Idx → Ideal .f32) = shapeCast S1x256x1x1 (m ((c : Thread nD τ).loc main_arg1)) shapeCasts_S256_S1x256x1x1 := by
  dsimp only [Gen.V, Gen.hostOps0]
  after_results
  rfl

/-- The three index maps, over the grid: the entries' and the output's blocks move along the batch axis only, block
    `t` at point `t`; the steps' block does not move. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- What point `t` writes back is block `t` of the quantized array. -/
theorem flushed_eq (c : Dev nD) (t : Fin cfg0.N) :
    (dats m 0 c).flushed 2 t
      = ((cfg0.win 2).blk t).view.read (Elt Ideal) (quantize (V m c main_arg0) (m ((c : Thread nD τ).loc main_arg1))) := by
  show (cfg0.win 2).cut (grid0.coords t) ((dats m 0 c).after 2 t) = _
  rw [after0_2]
  unfold out0_2
  rw [View.canon_unit_zero zero_off]
  simp only [View.ld_unit_zero (S := S2x256x56x56) zero_off, View.ld_unit_zero (S := S1x256x1x1) zero_off]
  obtain ⟨a0, a1, a2, a3, b0, b1, b2, b3, o0, o1, o2, o3⟩ := idx_facts t
  funext j
  refine (pay_apply (iblk m c 1 t) (iblk m c 0 t) j).trans ?_
  show q (V m c main_arg0 (((cfg0.win 0).blk t).view.emb j)) (V m c main_v0 (((cfg0.win 1).blk t).view.emb (stepAt j)))
    = q (V m c main_arg0 (((cfg0.win 2).blk t).view.emb j)) (m ((c : Thread nD τ).loc main_arg1) (chan (((cfg0.win 2).blk t).view.emb j)))
  have h0 : ((cfg0.win 0).blk t).view.emb j = ((cfg0.win 2).blk t).view.emb j := by
    funext a; apply Fin.ext
    match a with
    | ⟨0, _⟩ => show win0_0.index t (0 : Fin 4) * 2 + 1 * (j 0).val = win0_2.index t (0 : Fin 4) * 2 + 1 * (j 0).val; omega
    | ⟨1, _⟩ => show win0_0.index t (1 : Fin 4) * 256 + 1 * (j 1).val = win0_2.index t (1 : Fin 4) * 256 + 1 * (j 1).val; omega
    | ⟨2, _⟩ => show win0_0.index t (2 : Fin 4) * 56 + 1 * (j 2).val = win0_2.index t (2 : Fin 4) * 56 + 1 * (j 2).val; omega
    | ⟨3, _⟩ => show win0_0.index t (3 : Fin 4) * 56 + 1 * (j 3).val = win0_2.index t (3 : Fin 4) * 56 + 1 * (j 3).val; omega
  have h1 : ((cfg0.win 1).blk t).view.emb (stepAt j) = stepAt j := by
    funext a; apply Fin.ext
    match a with
    | ⟨0, _⟩ => show win0_1.index t (0 : Fin 4) * 1 + 1 * 0 = 0; omega
    | ⟨1, _⟩ => show win0_1.index t (1 : Fin 4) * 256 + 1 * (j 1).val = (j 1).val; omega
    | ⟨2, _⟩ => show win0_1.index t (2 : Fin 4) * 1 + 1 * 0 = 0; omega
    | ⟨3, _⟩ => show win0_1.index t (3 : Fin 4) * 1 + 1 * 0 = 0; omega
  have h2 : ((((cfg0.win 2).blk t).view.emb j) 1).val = (j 1).val := by
    show win0_2.index t (1 : Fin 4) * 256 + 1 * (j 1).val = (j 1).val; omega
  rw [h0, h1, V_steps, steps_read _ j _ h2]

/-- An index of the array is in point `t`'s block iff each coordinate is in the block's range on its axis. -/
theorem mem_blk (t : Fin cfg0.N) (i : S64x256x56x56.Idx) :
    i ∈ ((cfg0.win 2).blk t).view.set ↔ ∀ a : Fin 4, win0_2.index t a * S2x256x56x56.size a ≤ (i a).val ∧ (i a).val < win0_2.index t a * S2x256x56x56.size a + S2x256x56x56.size a := by
  show i ∈ ((View.whole main_v1).slice (win0_2.rect t)).set ↔ _
  rw [View.set_slice_whole, Rect.mem_set_unit]
  exact Iff.rfl

/-- Every index of the array is in some point's block: batch `b` in block `b / 2`. -/
theorem cover (i : S64x256x56x56.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 56 := (i 2).isLt
  have hi3 : (i 3).val < 56 := (i 3).isLt
  have hN : (i 0).val / 2 < cfg0.N := by show (i 0).val / 2 < grid0.N; rw [N_0]; omega
  refine ⟨⟨(i 0).val / 2, hN⟩, flush0_2 _, ?_⟩
  obtain ⟨-, -, -, -, -, -, -, -, o0, o1, o2, o3⟩ := idx_facts ⟨(i 0).val / 2, hN⟩
  have o0' : win0_2.index ⟨(i 0).val / 2, hN⟩ (0 : Fin 4) = (i 0).val / 2 := o0
  rw [mem_blk]
  intro a
  match a with
  | ⟨0, _⟩ => show win0_2.index ⟨(i 0).val / 2, hN⟩ (0 : Fin 4) * 2 ≤ (i 0).val ∧ (i 0).val < win0_2.index ⟨(i 0).val / 2, hN⟩ (0 : Fin 4) * 2 + 2; omega
  | ⟨1, _⟩ => show win0_2.index ⟨(i 0).val / 2, hN⟩ (1 : Fin 4) * 256 ≤ (i 1).val ∧ (i 1).val < win0_2.index ⟨(i 0).val / 2, hN⟩ (1 : Fin 4) * 256 + 256; omega
  | ⟨2, _⟩ => show win0_2.index ⟨(i 0).val / 2, hN⟩ (2 : Fin 4) * 56 ≤ (i 2).val ∧ (i 2).val < win0_2.index ⟨(i 0).val / 2, hN⟩ (2 : Fin 4) * 56 + 56; omega
  | ⟨3, _⟩ => show win0_2.index ⟨(i 0).val / 2, hN⟩ (3 : Fin 4) * 56 ≤ (i 3).val ∧ (i 3).val < win0_2.index ⟨(i 0).val / 2, hN⟩ (3 : Fin 4) * 56 + 56; omega

/-- The output array after the run is the quantized array of the two arguments as launched. -/
theorem final (c : Dev nD) :
    (dats m 0 c).arrAt 2 cfg0.N = quantize (m ((c : Thread nD τ).loc main_arg0)) (m ((c : Thread nD τ).loc main_arg1)) := by
  rw [← V_main_arg0 m c]
  exact (dats m 0 c).arrAt_eq_of_cover 2 (quantize (V m c main_arg0) (m ((c : Thread nD τ).loc main_arg1)))
    (fun t _ => flushed_eq m c t) cover

/-- The kernel's run: the result array ends at the quantized array, the arguments unchanged. -/
theorem run : θ_run defs (onTc (τ := τ) (main (F := Ideal))) ⟨m, fun _ => 0, ρ⟩ fun r => ∀ c : Dev nD,
      r.2.mem ((c : Thread nD τ).loc main_v1) = quantize (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.QuantValue

end
-- ==== Proof.lean ====
/-
  Per-channel fake quantization over `x : f32[64, 256, 56, 56]` with steps `scale : f32[256]`.

  The kernel stores `clip(roundeven(x / s), -128, 127) * s`, the step `s` that of the entry's channel; it walks the
  batch axis two batches at a time. The reference computes the same value `q` and returns the straight-through
  form `x + (q - x)`. On the extended reals the division, the rounding, the two bounds and the product are the
  same functions in both programs, so the two values `q` are one term. The clipped value lies between two reals,
  so `q` is real when the step is; for a real entry `x + (q - x) = q`. The precondition gives exactly that: every
  entry and every step is a real number. Without it the identity fails (`⊤ + (q - ⊤) = ⊥`).

  The kernel's output array is read off its run block by block and shown to be the quantized array; the
  reference's last stage is read index by index. The three frames are the programs' runs; the idealization rewrote
  nothing.
-/
import proofs.«158682_j52664888984101_1_alg».proof.Defs
import proofs.«158682_j52664888984101_1_alg».proof.Proof.Gen.Kernel
import proofs.«158682_j52664888984101_1_alg».proof.Proof.Gen.Kernel.Skeleton
import proofs.«158682_j52664888984101_1_alg».proof.Proof.Gen.Kernel.Launch
import proofs.«158682_j52664888984101_1_alg».proof.Proof.Gen.Kernel.Points
import proofs.«158682_j52664888984101_1_alg».proof.Proof.Gen.Kernel.Frame
import proofs.«158682_j52664888984101_1_alg».proof.Proof.Gen.KernelIdeal
import proofs.«158682_j52664888984101_1_alg».proof.Proof.Gen.KernelIdeal.Skeleton
import proofs.«158682_j52664888984101_1_alg».proof.Proof.Gen.KernelIdeal.Launch
import proofs.«158682_j52664888984101_1_alg».proof.Proof.Gen.KernelIdeal.Points
import proofs.«158682_j52664888984101_1_alg».proof.Proof.Gen.KernelIdeal.Frame
import proofs.«158682_j52664888984101_1_alg».proof.Proof.Gen.ReferenceIdeal
import proofs.«158682_j52664888984101_1_alg».proof.Proof.Gen.Pre_finite_inputs
import proofs.«158682_j52664888984101_1_alg».proof.Proof.Gen.KernelIdeal.Value
import proofs.«158682_j52664888984101_1_alg».proof.Proof.Gen.ReferenceIdeal.Run
import proofs.«158682_j52664888984101_1_alg».proof.Proof.Gen.ReferenceIdeal.Read
import proofs.«158682_j52664888984101_1_alg».proof.Proof.FiniteInputs
import proofs.«158682_j52664888984101_1_alg».proof.Proof.RefIsQuant
import proofs.«158682_j52664888984101_1_alg».proof.Proof.KernelIsQuant
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the quantized array of the arguments: the kernel by its blocks, the reference because
    `x + (q - x) = q` for the real entries and steps the precondition gives. -/
theorem algebraic : Cert.algebraic_KernelIdeal_ReferenceIdeal := by
  intro m ρ m' ρ' hpre hagree
  refine ⟨fun c => Cert.Quant.quantize (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.QuantValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.Quant.reals_of_pre _ _ (hpre c)
  rw [Cert.ReferenceIdeal.Read.val_main_v8_eq, (hagree c).1, (hagree c).2]
  exact Cert.ReferenceIdeal.QuantValue.ref_eq _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
